-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4096x4096 : Shape := ⟨2, ![4096, 4096]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x4096x256 .f32) (main_arg1 : FVec F S4096x4096 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x4096x256 : Shape := ⟨3, ![4, 4096, 256]⟩
abbrev S4096x4096 : Shape := ⟨2, ![4096, 4096]⟩
abbrev S512x4096 : Shape := ⟨2, ![512, 4096]⟩
abbrev S4x512x256 : Shape := ⟨3, ![4, 512, 256]⟩
abbrev S256x4096 : Shape := ⟨2, ![256, 4096]⟩
abbrev S1x4096x256 : Shape := ⟨3, ![1, 4096, 256]⟩
abbrev S4096x256 : Shape := ⟨2, ![4096, 256]⟩
abbrev S256x256 : Shape := ⟨2, ![256, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x256, .f32⟩
  | .hbm, ⟨1, _⟩ => ⟨S4096x4096, .f32⟩
  | .hbm, ⟨2, _⟩ => ⟨S4x4096x256, .f32⟩
  | .local _ .vmem, ⟨0, _⟩ => ⟨S512x4096, .f32⟩
  | .local _ .vmem, ⟨1, _⟩ => ⟨S512x4096, .f32⟩
  | .local _ .vmem, ⟨2, _⟩ => ⟨S4x4096x256, .f32⟩
  | .local _ .vmem, ⟨3, _⟩ => ⟨S4x512x256, .f32⟩
  | .local _ .vmem, ⟨4, _⟩ => ⟨S4x512x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x4096_S256x4096_0_0 : ∀ a, (![0, 0] : Fin 2 → Nat) a + S256x4096.size a ≤ S512x4096.size a
  h_S256x4096 : 0 < S256x4096.numel
  bitsLt_bf16_f32 : FTy.bits .bf16 < FTy.bits .f32
  inb_S4x4096x256_S1x4096x256_0_0_0 : ∀ a, (![0, 0, 0] : Fin 3 → Nat) a + S1x4096x256.size a ≤ S4x4096x256.size a
  h_S1x4096x256 : 0 < S1x4096x256.numel
  shapeCasts_S1x4096x256_S4096x256 : S1x4096x256.ShapeCasts S4096x256
  inb_S4x512x256_S1x256x256_0_0_0 : ∀ a, (![0, 0, 0] : Fin 3 → Nat) a + S1x256x256.size a ≤ S4x512x256.size a
  h_S1x256x256 : 0 < S1x256x256.numel
  shapeCasts_S1x256x256_S256x256 : S1x256x256.ShapeCasts S256x256
  shapeCasts_S256x256_S1x256x256 : S256x256.ShapeCasts S1x256x256
  inb_S4x4096x256_S1x4096x256_1_0_0 : ∀ a, (![1, 0, 0] : Fin 3 → Nat) a + S1x4096x256.size a ≤ S4x4096x256.size a
  inb_S4x512x256_S1x256x256_1_0_0 : ∀ a, (![1, 0, 0] : Fin 3 → Nat) a + S1x256x256.size a ≤ S4x512x256.size a
  inb_S4x4096x256_S1x4096x256_2_0_0 : ∀ a, (![2, 0, 0] : Fin 3 → Nat) a + S1x4096x256.size a ≤ S4x4096x256.size a
  inb_S4x512x256_S1x256x256_2_0_0 : ∀ a, (![2, 0, 0] : Fin 3 → Nat) a + S1x256x256.size a ≤ S4x512x256.size a
  inb_S4x4096x256_S1x4096x256_3_0_0 : ∀ a, (![3, 0, 0] : Fin 3 → Nat) a + S1x4096x256.size a ≤ S4x4096x256.size a
  inb_S4x512x256_S1x256x256_3_0_0 : ∀ a, (![3, 0, 0] : Fin 3 → Nat) a + S1x256x256.size a ≤ S4x512x256.size a
  inb_S512x4096_S256x4096_256_0 : ∀ a, (![256, 0] : Fin 2 → Nat) a + S256x4096.size a ≤ S512x4096.size a
  inb_S4x512x256_S1x256x256_0_256_0 : ∀ a, (![0, 256, 0] : Fin 3 → Nat) a + S1x256x256.size a ≤ S4x512x256.size a
  inb_S4x512x256_S1x256x256_1_256_0 : ∀ a, (![1, 256, 0] : Fin 3 → Nat) a + S1x256x256.size a ≤ S4x512x256.size a
  inb_S4x512x256_S1x256x256_2_256_0 : ∀ a, (![2, 256, 0] : Fin 3 → Nat) a + S1x256x256.size a ≤ S4x512x256.size a
  inb_S4x512x256_S1x256x256_3_256_0 : ∀ a, (![3, 256, 0] : Fin 3 → Nat) a + S1x256x256.size a ≤ S4x512x256.size a
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096x256.size a ≤ S4x4096x256.size a
  hwx0_1 : ∀ i : grid0.Coords, EltTy.bits .f32 = 32 ∨ (Rect.block (s := S4x4096x256) S4x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x256.size a ≤ S4x4096x256.size a
  hwx0_2 : ∀ i : grid0.Coords, EltTy.bits .f32 = 32 ∨ (Rect.block (s := S4x4096x256) S4x512x256.size (cc0_transform_2 i) (hinb0_2 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S4096x4096 : Shape := ⟨2, ![4096, 4096]⟩
abbrev S1x4096x256 : Shape := ⟨3, ![1, 4096, 256]⟩
abbrev S4096x256 : Shape := ⟨2, ![4096, 256]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4096x4096, .f32⟩
  | .hbm, ⟨2, _⟩ => ⟨S1x4096x256, .f32⟩
  | .hbm, ⟨3, _⟩ => ⟨S4096x256, .f32⟩
  | .hbm, ⟨4, _⟩ => ⟨S4096x256, .f32⟩
  | .hbm, ⟨5, _⟩ => ⟨S1x4096x256, .f32⟩
  | .hbm, ⟨6, _⟩ => ⟨S4096x256, .f32⟩
  | .hbm, ⟨7, _⟩ => ⟨S4096x256, .f32⟩
  | .hbm, ⟨8, _⟩ => ⟨S1x4096x256, .f32⟩
  | .hbm, ⟨9, _⟩ => ⟨S4096x256, .f32⟩
  | .hbm, ⟨10, _⟩ => ⟨S4096x256, .f32⟩
  | .hbm, ⟨11, _⟩ => ⟨S1x4096x256, .f32⟩
  | .hbm, ⟨12, _⟩ => ⟨S4096x256, .f32⟩
  | .hbm, ⟨13, _⟩ => ⟨S4096x256, .f32⟩
  | .hbm, ⟨14, _⟩ => ⟨S1x4096x256, .f32⟩
  | .hbm, ⟨15, _⟩ => ⟨S1x4096x256, .f32⟩
  | .hbm, ⟨16, _⟩ => ⟨S1x4096x256, .f32⟩
  | .hbm, ⟨17, _⟩ => ⟨S1x4096x256, .f32⟩
  | .hbm, ⟨18, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]

class Facts₀ : Prop where
  slices_S4x4096x256_S1x4096x256_0_0_0 : S4x4096x256.Slices ![0, 0, 0] S1x4096x256
  shapeCasts_S1x4096x256_S4096x256 : S1x4096x256.ShapeCasts S4096x256
  slices_S4x4096x256_S1x4096x256_1_0_0 : S4x4096x256.Slices ![1, 0, 0] S1x4096x256
  slices_S4x4096x256_S1x4096x256_2_0_0 : S4x4096x256.Slices ![2, 0, 0] S1x4096x256
  slices_S4x4096x256_S1x4096x256_3_0_0 : S4x4096x256.Slices ![3, 0, 0] S1x4096x256
  bcast_S4096x256_S1x4096x256_1_2 : S4096x256.BroadcastsInDim S1x4096x256 (![1, 2] : Fin 2 → Fin S1x4096x256.rank)
  concatenates_S1x4096x256_S1x4096x256_S1x4096x256_S1x4096x256_S4x4096x256_d0 : Shape.Concatenates [S1x4096x256, S1x4096x256, S1x4096x256, S1x4096x256] S4x4096x256 0
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Tile.lean ====
/-
  One store of the kernel body at an index.  Each of the body's eight stores writes a 256 × 256 tile

      tile[p, q] = ∑ k < 4096, rows[p, k] · xb[k, q],

  the MXU product (into a zero accumulator) of 256 rows of the matrix block, narrowed to bf16 (which over the
  extended reals changes nothing), with one batch element xb of the resident input; the tile and the batch
  element are each carried through a cast that adds or drops a leading axis of extent one.
-/
import proofs.«128808_g21036749816194_cont_8to1_1761_14_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The product's operand indices: row p, contraction position k, column q -/

theorem lhs_axis0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs_axis1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_axis0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_axis1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- The MXU product into a zero accumulator, at entry (p, q): the plain sum of products over the contracted axis. -/
theorem matmul_entry (a : FVec Ideal S256x4096 .bf16) (v : FVec Ideal S4096x256 .f32) (p q : Fin 256) :
    matmul dot_S256x4096_S4096x256_S256x256_1_0_0_1_n_n none a v (constant S256x256 .f32 0x00000000#32) (ix2 p q)
      = ∑ k : Fin 4096, a (ix2 p k) * v (ix2 k q) := by
  show FloatOps.matmul dot_S256x4096_S4096x256_S256x256_1_0_0_1_n_n none a v (constant S256x256 .f32 0x00000000#32) (ix2 p q) = _
  rw [Ideal.matmul_constant_zero_apply, ← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 p q) ((contrEquiv1 dot_S256x4096_S4096x256_S256x256_1_0_0_1_n_n 4096 rfl rfl).symm k) = ix2 p k := funext fun a => Fin.ext (by
    match a with
    | ⟨0, _⟩ => exact lhs_axis0 _ _
    | ⟨1, _⟩ => exact (lhs_axis1 _ _).trans hk)
  have er : dot_S256x4096_S4096x256_S256x256_1_0_0_1_n_n.rhsIdx (ix2 p q) ((contrEquiv1 dot_S256x4096_S4096x256_S256x256_1_0_0_1_n_n 4096 rfl rfl).symm k) = ix2 k q := funext fun a => Fin.ext (by
    match a with
    | ⟨0, _⟩ => exact (rhs_axis0 _ _).trans hk
    | ⟨1, _⟩ => exact rhs_axis1 _ _)
  rw [el, er]

/-- Dropping the leading unit axis of a batch element: entry (k, q) is entry (0, k, q). -/
theorem dropUnit_entry (v : FVec Ideal S1x4096x256 .f32) (k : Fin 4096) (q : Fin 256) :
    shapeCast S4096x256 v shapeCasts_S1x4096x256_S4096x256 (ix2 k q) = v (ix3 (0 : Fin 1) k q) :=
  shapeCast_apply v shapeCasts_S1x4096x256_S4096x256 (ix2 k q) (ix3 (0 : Fin 1) k q)
    (by rewrite [Shape.rowMajor_val_three, Shape.rowMajor_val_two]; show (0 * 4096 + k.val) * 256 + q.val = k.val * 256 + q.val; omega)

/-- Adding a leading unit axis to a tile: entry (0, p, q) is entry (p, q). -/
theorem addUnit_entry (w : FVec Ideal S256x256 .f32) (p q : Fin 256) :
    shapeCast S1x256x256 w shapeCasts_S256x256_S1x256x256 (ix3 (0 : Fin 1) p q) = w (ix2 p q) :=
  shapeCast_apply w shapeCasts_S256x256_S1x256x256 (ix3 (0 : Fin 1) p q) (ix2 p q)
    (by rewrite [Shape.rowMajor_val_three, Shape.rowMajor_val_two]; show p.val * 256 + q.val = (0 * 256 + p.val) * 256 + q.val; omega)

/-- The tile one store writes, as the body computes it from the 256 loaded rows and the loaded batch element. -/
def tile (rows : FVec Ideal S256x4096 .f32) (xb : FVec Ideal S1x4096x256 .f32) : FVec Ideal S1x256x256 .f32 :=
  shapeCast S1x256x256
    (matmul dot_S256x4096_S4096x256_S256x256_1_0_0_1_n_n none (truncf .bf16 rows bitsLt_bf16_f32)
      (shapeCast S4096x256 xb shapeCasts_S1x4096x256_S4096x256) (constant S256x256 .f32 0x00000000#32))
    shapeCasts_S256x256_S1x256x256

/-- The tile at (0, p, q): row p of the loaded rows against column q of the batch element. -/
theorem tile_entry (rows : FVec Ideal S256x4096 .f32) (xb : FVec Ideal S1x4096x256 .f32) (p q : Fin 256) :
    tile rows xb (ix3 (0 : Fin 1) p q) = ∑ k : Fin 4096, rows (ix2 p k) * xb (ix3 (0 : Fin 1) k q) := by
  unfold tile
  rw [addUnit_entry, matmul_entry]
  refine Finset.sum_congr rfl fun k _ => ?_
  rw [dropUnit_entry]
  rfl

/-! ## The eight payloads are that tile -/

theorem pay2_eq (v0 : FVec Ideal S256x4096 .f32) (v : FVec Ideal S1x4096x256 .f32) : k0_pay2 (F := Ideal) v0 v = tile v0 v := rfl
theorem pay3_eq (v0 : FVec Ideal S256x4096 .f32) (v : FVec Ideal S1x4096x256 .f32) : k0_pay3 (F := Ideal) v0 v = tile v0 v := rfl
theorem pay4_eq (v0 : FVec Ideal S256x4096 .f32) (v : FVec Ideal S1x4096x256 .f32) : k0_pay4 (F := Ideal) v0 v = tile v0 v := rfl
theorem pay5_eq (v0 : FVec Ideal S256x4096 .f32) (v : FVec Ideal S1x4096x256 .f32) : k0_pay5 (F := Ideal) v0 v = tile v0 v := rfl
theorem pay7_eq (v0 : FVec Ideal S256x4096 .f32) (v : FVec Ideal S1x4096x256 .f32) : k0_pay7 (F := Ideal) v0 v = tile v0 v := rfl
theorem pay8_eq (v0 : FVec Ideal S256x4096 .f32) (v : FVec Ideal S1x4096x256 .f32) : k0_pay8 (F := Ideal) v0 v = tile v0 v := rfl
theorem pay9_eq (v0 : FVec Ideal S256x4096 .f32) (v : FVec Ideal S1x4096x256 .f32) : k0_pay9 (F := Ideal) v0 v = tile v0 v := rfl
theorem pay10_eq (v0 : FVec Ideal S256x4096 .f32) (v : FVec Ideal S1x4096x256 .f32) : k0_pay10 (F := Ideal) v0 v = tile v0 v := rfl

end Cert.KernelIdeal.Tile

end
-- ==== Proof.Projection.lean ====
/-
  The mathematics both programs compute: the batched projection out[b] = P · x[b], entry by entry

      out[b, r, d] = ∑ k < 4096, P[r, k] · x[b, k, d]          (b < 4, r < 4096, d < 256),

  a sum of 4096 products of extended reals.  Also the same sum over ONE block of 512 rows of P (what one grid
  point of the kernel sees), and the remark that joins the two: if row r of the block is row r' of P, the
  block's entries on row r are the array's entries on row r'.  No algebraic law is needed beyond reading the
  same sum on both sides, so finiteness of the inputs plays no part.
-/
import Idealize.ShloMosaic.PureOps.Ideal
import Idealize.ShloMosaic.Lib.ValueIdx

noncomputable section

open scoped BigOperators

namespace Cert.Projection

open Idealize.ShloMosaic Idealize.ShloMosaic.ValueIdx

/-- The matrix P, the batch x and the result as arrays over literal shapes. -/
abbrev MatShape : Shape := ⟨2, ![4096, 4096]⟩
abbrev BatchShape : Shape := ⟨3, ![4, 4096, 256]⟩
/-- A block of 512 rows of P, and the block of the result those rows produce. -/
abbrev RowsShape : Shape := ⟨2, ![512, 4096]⟩
abbrev OutBlockShape : Shape := ⟨3, ![4, 512, 256]⟩

/-- Entry (b, r, d) of P · x[b]: row r of P against column d of x[b]. -/
def entry (P : FVec Ideal MatShape .f32) (x : FVec Ideal BatchShape .f32) (b : Fin 4) (r : Fin 4096) (d : Fin 256) : EReal :=
  ∑ k : Fin 4096, P (ix2 r k) * x (ix3 b k d)

/-- The whole result, as a function of the array index. -/
def batched (P : FVec Ideal MatShape .f32) (x : FVec Ideal BatchShape .f32) : FVec Ideal BatchShape .f32 :=
  fun i => entry P x (i 0) (i 1) (i 2)

theorem batched_ix3 (P : FVec Ideal MatShape .f32) (x : FVec Ideal BatchShape .f32) (b : Fin 4) (r : Fin 4096) (d : Fin 256) :
    batched P x (ix3 b r d) = entry P x b r d := rfl

/-- The same product for a block of 512 rows of the matrix. -/
def blockEntry (R : FVec Ideal RowsShape .f32) (x : FVec Ideal BatchShape .f32) (b : Fin 4) (r : Fin 512) (d : Fin 256) : EReal :=
  ∑ k : Fin 4096, R (ix2 r k) * x (ix3 b k d)

/-- The block of the result that a block of rows produces. -/
def blockOut (R : FVec Ideal RowsShape .f32) (x : FVec Ideal BatchShape .f32) : FVec Ideal OutBlockShape .f32 :=
  fun y => blockEntry R x (y 0) (y 1) (y 2)

theorem blockOut_ix3 (R : FVec Ideal RowsShape .f32) (x : FVec Ideal BatchShape .f32) (b : Fin 4) (r : Fin 512) (d : Fin 256) :
    blockOut R x (ix3 b r d) = blockEntry R x b r d := rfl

/-- If row r of the block is row r' of the matrix (and the two batches agree on column d of element b), entry
    (b, r, d) of the block's product is entry (b, r', d) of the whole product: the two sums have the same terms. -/
theorem blockEntry_eq_entry (P : FVec Ideal MatShape .f32) (R : FVec Ideal RowsShape .f32) (x x' : FVec Ideal BatchShape .f32)
    (b : Fin 4) (r : Fin 512) (r' : Fin 4096) (d : Fin 256) (hrow : ∀ k : Fin 4096, R (ix2 r k) = P (ix2 r' k))
    (hcol : ∀ k : Fin 4096, x (ix3 b k d) = x' (ix3 b k d)) :
    blockEntry R x b r d = entry P x' b r' d :=
  Finset.sum_congr rfl fun k _ => by rw [hrow k, hcol k]

end Cert.Projection

end
-- ==== Proof.Block.lean ====
/-
  What the kernel body leaves in the output block.  The body covers the 4 × 512 × 256 output block with eight
  stores, one 256 × 256 tile per batch element b and per half (rows 0..255, rows 256..511) of the 512 matrix
  rows in the block; tile (b, half) is rows half·256 + p of the block against batch element b.  Every tile is a
  piece of ONE function of the block index,

      block[b, r, d] = ∑ k < 4096, rows[r, k] · x[b, k, d],

  so the eight stores together leave exactly that function.
-/
import proofs.«128808_g21036749816194_cont_8to1_1761_14_alg».proof.Proof.Gen.KernelIdeal.Frame
import proofs.«128808_g21036749816194_cont_8to1_1761_14_alg».proof.Proof.Tile
import proofs.«128808_g21036749816194_cont_8to1_1761_14_alg».proof.Proof.Projection

noncomputable section

open scoped BigOperators

namespace Cert.KernelIdeal.Block

open Cert.KernelIdeal Cert.KernelIdeal.Gen Idealize.ShloMosaic Idealize.ShloMosaic.ValueIdx

/-- One store, whatever its batch element `ob` and its first row `orow`: the tile computed from rows
    `orow ..` of the matrix block and batch element `ob` of the input is, at each of its entries, the block
    function at the place in the output block where the store puts that entry. -/
theorem tile_is_piece (x0 : Vec Ideal S512x4096 .f32) (x1 : Vec Ideal S4x4096x256 .f32) (ob orow : Nat)
    (inbR : ∀ a, (![orow, 0] : Fin 2 → Nat) a + S256x4096.size a ≤ S512x4096.size a)
    (inbX : ∀ a, (![ob, 0, 0] : Fin 3 → Nat) a + S1x4096x256.size a ≤ S4x4096x256.size a)
    (inbO : ∀ a, (![ob, orow, 0] : Fin 3 → Nat) a + S1x256x256.size a ≤ S4x512x256.size a)
    (y : S1x256x256.Idx) :
    Tile.tile (View.ld (Val := Elt Ideal) x0 (Rect.unit (s := S512x4096) ![orow, 0] S256x4096.size inbR))
        (View.ld (Val := Elt Ideal) x1 (Rect.unit (s := S4x4096x256) ![ob, 0, 0] S1x4096x256.size inbX)) y
      = Cert.Projection.blockOut x0 x1 ((Rect.unit (s := S4x512x256) ![ob, orow, 0] S1x256x256.size inbO).emb y) := by
  obtain ⟨z, p, q, rfl⟩ : ∃ (z : Fin 1) (p q : Fin 256), y = ix3 z p q := ⟨y 0, y 1, y 2, eq_ix3 y⟩
  obtain rfl : z = 0 := Subsingleton.elim _ _
  rw [Tile.tile_entry]
  unfold Cert.Projection.blockOut Cert.Projection.blockEntry
  refine Finset.sum_congr rfl fun k _ => ?_
  congr 1
  · exact congrArg x0 (funext fun a => Fin.ext (by
      match a with
      | ⟨0, _⟩ => rfl
      | ⟨1, _⟩ => show 0 + 1 * k.val = k.val; omega))
  · exact congrArg x1 (funext fun a => Fin.ext (by
      match a with
      | ⟨0, _⟩ => rfl
      | ⟨1, _⟩ => show 0 + 1 * k.val = k.val; omega
      | ⟨2, _⟩ => rfl))

/-- THE BLOCK after the body: the eight tiles are the eight pieces of the block function, and they cover the block. -/
theorem out_eq (x0 : Vec Ideal S512x4096 .f32) (x1 : Vec Ideal S4x4096x256 .f32) :
    out0_2 (F := Ideal) x0 x1 = Cert.Projection.blockOut x0 x1 := by
  funext y
  unfold out0_2
  refine View.canon_apply_of_pieces (Val := Elt Ideal) (S := S4x512x256) (e := .f32) (Cert.Projection.blockOut x0 x1) _ ?_ y (cover0_2 _ _ _ _ _ _ _ _ y)
  intro pc hpc x
  simp only [List.mem_cons, List.not_mem_nil, or_false] at hpc
  rcases hpc with rfl | rfl | rfl | rfl | rfl | rfl | rfl | rfl
  · exact (congrFun (Tile.pay10_eq _ _) x).trans (tile_is_piece x0 x1 3 256 inb_S512x4096_S256x4096_256_0 inb_S4x4096x256_S1x4096x256_3_0_0 inb_S4x512x256_S1x256x256_3_256_0 x)
  · exact (congrFun (Tile.pay9_eq _ _) x).trans (tile_is_piece x0 x1 2 256 inb_S512x4096_S256x4096_256_0 inb_S4x4096x256_S1x4096x256_2_0_0 inb_S4x512x256_S1x256x256_2_256_0 x)
  · exact (congrFun (Tile.pay8_eq _ _) x).trans (tile_is_piece x0 x1 1 256 inb_S512x4096_S256x4096_256_0 inb_S4x4096x256_S1x4096x256_1_0_0 inb_S4x512x256_S1x256x256_1_256_0 x)
  · exact (congrFun (Tile.pay7_eq _ _) x).trans (tile_is_piece x0 x1 0 256 inb_S512x4096_S256x4096_256_0 inb_S4x4096x256_S1x4096x256_0_0_0 inb_S4x512x256_S1x256x256_0_256_0 x)
  · exact (congrFun (Tile.pay5_eq _ _) x).trans (tile_is_piece x0 x1 3 0 inb_S512x4096_S256x4096_0_0 inb_S4x4096x256_S1x4096x256_3_0_0 inb_S4x512x256_S1x256x256_3_0_0 x)
  · exact (congrFun (Tile.pay4_eq _ _) x).trans (tile_is_piece x0 x1 2 0 inb_S512x4096_S256x4096_0_0 inb_S4x4096x256_S1x4096x256_2_0_0 inb_S4x512x256_S1x256x256_2_0_0 x)
  · exact (congrFun (Tile.pay3_eq _ _) x).trans (tile_is_piece x0 x1 1 0 inb_S512x4096_S256x4096_0_0 inb_S4x4096x256_S1x4096x256_1_0_0 inb_S4x512x256_S1x256x256_1_0_0 x)
  · exact (congrFun (Tile.pay2_eq _ _) x).trans (tile_is_piece x0 x1 0 0 inb_S512x4096_S256x4096_0_0 inb_S4x4096x256_S1x4096x256_0_0_0 inb_S4x512x256_S1x256x256_0_0_0 x)

end Cert.KernelIdeal.Block

end
-- ==== Proof.Whole.lean ====
/-
  From blocks to the array.  Grid point t (of 8) stages rows 512 t .. 512 t + 511 of the matrix, the whole batch,
  and writes back rows 512 t .. 512 t + 511 of the result for every batch element.  What it writes back is the
  block product of the staged rows, which is the batched projection restricted to those rows; the eight row
  bands cover the result array (row r belongs to point r / 512), so the array ends holding the projection.
-/
import proofs.«128808_g21036749816194_cont_8to1_1761_14_alg».proof.Proof.Gen.KernelIdeal.Value
import proofs.«128808_g21036749816194_cont_8to1_1761_14_alg».proof.Proof.Block
import proofs.«128808_g21036749816194_cont_8to1_1761_14_alg».proof.Proof.Projection

noncomputable section

open scoped BigOperators

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Where the three windows' blocks sit at grid point t: the matrix block and the result block move down one
    block of rows per point, the batch stays put. Decided over the eight points. -/
theorem block_indices : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- The matrix as the region finds it, and the batch. -/
abbrev matrix (c : Dev nD) : FVec Ideal S4096x4096 .f32 := V m c main_arg1
abbrev batch (c : Dev nD) : FVec Ideal S4x4096x256 .f32 := V m c main_arg0
/-- The staged matrix rows and the staged batch at point t. -/
abbrev rowsAt (c : Dev nD) (t : Fin cfg0.N) : Vec Ideal S512x4096 .f32 := iblk m c 0 t
abbrev batchAt (c : Dev nD) (t : Fin cfg0.N) : Vec Ideal S4x4096x256 .f32 := iblk m c 1 t

/-- Row r of the rows staged at point t is row 512 t + r of the matrix. -/
theorem rowsAt_entry (c : Dev nD) (t : Fin cfg0.N) (r : Fin 512) (k : Fin 4096) (r' : Fin 4096) (hr : r'.val = 512 * t.val + r.val) :
    rowsAt m c t (ix2 r k) = matrix m c (ix2 r' k) := by
  obtain ⟨e0, e1, -⟩ := block_indices t
  show V m c main_arg1 _ = V m c main_arg1 _
  congr 1
  funext a
  apply Fin.ext
  match a with
  | ⟨0, _⟩ => show win0_0.index t (0 : Fin 2) * 512 + 1 * r.val = r'.val; rw [e0, hr]; omega
  | ⟨1, _⟩ => show win0_0.index t (1 : Fin 2) * 4096 + 1 * k.val = k.val; rw [e1]; omega

/-- The batch staged at any point is the batch. -/
theorem batchAt_entry (c : Dev nD) (t : Fin cfg0.N) (b : Fin 4) (k : Fin 4096) (d : Fin 256) :
    batchAt m c t (ix3 b k d) = batch m c (ix3 b k d) := by
  obtain ⟨-, -, e0, e1, e2, -⟩ := block_indices t
  show V m c main_arg0 _ = V m c main_arg0 _
  congr 1
  funext a
  apply Fin.ext
  match a with
  | ⟨0, _⟩ => show win0_1.index t (0 : Fin 3) * 4 + 1 * b.val = b.val; rw [e0]; omega
  | ⟨1, _⟩ => show win0_1.index t (1 : Fin 3) * 4096 + 1 * k.val = k.val; rw [e1]; omega
  | ⟨2, _⟩ => show win0_1.index t (2 : Fin 3) * 256 + 1 * d.val = d.val; rw [e2]; omega

/-- WHAT POINT t WRITES BACK is its block of the batched projection of the arrays as the region finds them. -/
theorem flushed_eq (c : Dev nD) (t : Fin cfg0.N) :
    (dats m 0 c).flushed 2 t
      = ((cfg0.win 2).blk t).view.read (Elt Ideal) (Cert.Projection.batched (matrix m c) (batch m c)) := by
  rw [Value.flushed2]
  funext j
  show out0_2 (rowsAt m c t) (batchAt m c t) j
    = Cert.Projection.batched (matrix m c) (batch m c) (((cfg0.win 2).blk t).view.emb j)
  refine (congrFun (Block.out_eq (rowsAt m c t) (batchAt m c t)) j).trans ?_
  obtain ⟨b, r, d, rfl⟩ : ∃ (b : Fin 4) (r : Fin 512) (d : Fin 256), j = ix3 b r d := ⟨j 0, j 1, j 2, eq_ix3 j⟩
  obtain ⟨-, -, -, -, -, e0, e1, e2⟩ := block_indices t
  have hN : cfg0.N = 8 := N_0
  have ht : t.val < 8 := hN ▸ t.isLt
  have hr : r.val < 512 := r.isLt
  have hplace : ((cfg0.win 2).blk t).view.emb (ix3 b r d) = ix3 b (⟨512 * t.val + r.val, by omega⟩ : Fin 4096) d := by
    funext a
    apply Fin.ext
    match a with
    | ⟨0, _⟩ => show win0_2.index t (0 : Fin 3) * 4 + 1 * b.val = b.val; rw [e0]; omega
    | ⟨1, _⟩ => show win0_2.index t (1 : Fin 3) * 512 + 1 * r.val = 512 * t.val + r.val; rw [e1]; omega
    | ⟨2, _⟩ => show win0_2.index t (2 : Fin 3) * 256 + 1 * d.val = d.val; rw [e2]; omega
  rw [hplace, Cert.Projection.batched_ix3, Cert.Projection.blockOut_ix3]
  exact Cert.Projection.blockEntry_eq_entry (matrix m c) (rowsAt m c t) (batchAt m c t) (batch m c) b r _ d
    (fun k => rowsAt_entry m c t r k _ rfl) (fun k => batchAt_entry m c t b k d)

/-- An index of the result array is in point t's block iff each coordinate is in the block's range on its axis. -/
theorem mem_blk (t : Fin cfg0.N) (i : S4x4096x256.Idx) :
    i ∈ ((cfg0.win 2).blk t).view.set ↔ ∀ a : Fin 3, win0_2.index t a * S4x512x256.size a ≤ (i a).val ∧ (i a).val < win0_2.index t a * S4x512x256.size a + S4x512x256.size a := by
  show i ∈ ((View.whole main_v0).slice (win0_2.rect t)).set ↔ _
  rw [View.set_slice_whole, Rect.mem_set_unit]
  exact Iff.rfl

/-- THE COVER: row r of the result is written back by point r / 512. -/
theorem covered (i : S4x4096x256.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 256 := (i 2).isLt
  have hN : cfg0.N = 8 := N_0
  obtain ⟨t, ht⟩ : ∃ t : Fin cfg0.N, t.val = (i 1).val / 512 := ⟨⟨(i 1).val / 512, by rw [hN]; omega⟩, rfl⟩
  obtain ⟨-, -, -, -, -, e0, e1, e2⟩ := block_indices t
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; rw [e0]; omega
  | ⟨1, _⟩ => show win0_2.index t (1 : Fin 3) * 512 ≤ (i 1).val ∧ (i 1).val < win0_2.index t (1 : Fin 3) * 512 + 512; rw [e1, ht]; omega
  | ⟨2, _⟩ => show win0_2.index t (2 : Fin 3) * 256 ≤ (i 2).val ∧ (i 2).val < win0_2.index t (2 : Fin 3) * 256 + 256; rw [e2]; omega

/-- THE ARRAY after the run is the batched projection of the argument arrays. -/
theorem final (c : Dev nD) :
    (dats m 0 c).arrAt 2 cfg0.N = Cert.Projection.batched (matrix m c) (batch m c) :=
  (dats m 0 c).arrAt_eq_of_cover 2 (Cert.Projection.batched (matrix m c) (batch m c)) (fun t _ => flushed_eq m c t) covered

/-- The kernel's run, read: the result array at the batched projection of the arguments, the arguments unchanged. -/
theorem run : θ_run defs (onTc (τ := τ) (main (F := Ideal))) ⟨m, fun _ => 0, ρ⟩ fun r => ∀ c : Dev nD,
      r.2.mem ((c : Thread nD τ).loc main_v0)
        = Cert.Projection.batched (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Whole

end
-- ==== Proof.Stack.lean ====
/-
  What the reference computes, entry by entry.  The reference forms P · x[b] for each of the four batch elements
  separately (slice, drop the unit axis, one host matrix product, restore the unit axis) and stacks the four
  results along the batch axis.  Entry (b, r, d) of the stack is entry (0, r, d) of the b-th product, and that is

      ∑ k < 4096, P[r, k] · x[b, k, d].
-/
import proofs.«128808_g21036749816194_cont_8to1_1761_14_alg».proof.Proof.Gen.ReferenceIdeal.Read
import proofs.«128808_g21036749816194_cont_8to1_1761_14_alg».proof.Proof.Projection

noncomputable section

open scoped BigOperators

namespace Cert.ReferenceIdeal.Stack

open Cert.ReferenceIdeal Cert.ReferenceIdeal.Gen Cert.ReferenceIdeal.Read Idealize.ShloMosaic Idealize.ShloMosaic.ValueIdx

/-- Batch element 0: the reference slices it out of the input, drops the unit axis, multiplies by the matrix on the
    host and puts the unit axis back; at (0, r, d) that is entry (0, r, d) of the projection. -/
theorem product0 (x : FVec Ideal S4x4096x256 .f32) (P : FVec Ideal S4096x4096 .f32) (r : Fin 4096) (d : Fin 256) :
    val_main_v12 (F := Ideal) x P (ix3 (0 : Fin 1) r d) = Cert.Projection.entry P x (0 : Fin 4) r d := by
  rw [val_main_v12_apply, val_main_v2_apply]
  unfold Cert.Projection.entry
  refine Finset.sum_congr rfl fun k _ => ?_
  rw [val_main_v1_apply, val_main_v0_apply]
  have hk : k.val < 4096 := k.isLt
  have hd : d.val < 256 := d.isLt
  congr 1
  · exact congrArg P (funext fun a => Fin.ext (by
      match a with
      | ⟨0, _⟩ => rfl
      | ⟨1, _⟩ => rfl))
  · exact congrArg x (funext fun a => Fin.ext (by
      match a with
      | ⟨0, _⟩ => rfl
      | ⟨1, _⟩ => show (k.val * 256 + d.val) / 256 % 4096 = k.val; omega
      | ⟨2, _⟩ => show (k.val * 256 + d.val) % 256 = d.val; omega))

/-- Batch element 1: the reference slices it out of the input, drops the unit axis, multiplies by the matrix on the
    host and puts the unit axis back; at (0, r, d) that is entry (1, r, d) of the projection. -/
theorem product1 (x : FVec Ideal S4x4096x256 .f32) (P : FVec Ideal S4096x4096 .f32) (r : Fin 4096) (d : Fin 256) :
    val_main_v13 (F := Ideal) x P (ix3 (0 : Fin 1) r d) = Cert.Projection.entry P x (1 : Fin 4) r d := by
  rw [val_main_v13_apply, val_main_v5_apply]
  unfold Cert.Projection.entry
  refine Finset.sum_congr rfl fun k _ => ?_
  rw [val_main_v4_apply, val_main_v3_apply]
  have hk : k.val < 4096 := k.isLt
  have hd : d.val < 256 := d.isLt
  congr 1
  · exact congrArg P (funext fun a => Fin.ext (by
      match a with
      | ⟨0, _⟩ => rfl
      | ⟨1, _⟩ => rfl))
  · exact congrArg x (funext fun a => Fin.ext (by
      match a with
      | ⟨0, _⟩ => rfl
      | ⟨1, _⟩ => show (k.val * 256 + d.val) / 256 % 4096 = k.val; omega
      | ⟨2, _⟩ => show (k.val * 256 + d.val) % 256 = d.val; omega))

/-- Batch element 2: the reference slices it out of the input, drops the unit axis, multiplies by the matrix on the
    host and puts the unit axis back; at (0, r, d) that is entry (2, r, d) of the projection. -/
theorem product2 (x : FVec Ideal S4x4096x256 .f32) (P : FVec Ideal S4096x4096 .f32) (r : Fin 4096) (d : Fin 256) :
    val_main_v14 (F := Ideal) x P (ix3 (0 : Fin 1) r d) = Cert.Projection.entry P x (2 : Fin 4) r d := by
  rw [val_main_v14_apply, val_main_v8_apply]
  unfold Cert.Projection.entry
  refine Finset.sum_congr rfl fun k _ => ?_
  rw [val_main_v7_apply, val_main_v6_apply]
  have hk : k.val < 4096 := k.isLt
  have hd : d.val < 256 := d.isLt
  congr 1
  · exact congrArg P (funext fun a => Fin.ext (by
      match a with
      | ⟨0, _⟩ => rfl
      | ⟨1, _⟩ => rfl))
  · exact congrArg x (funext fun a => Fin.ext (by
      match a with
      | ⟨0, _⟩ => rfl
      | ⟨1, _⟩ => show (k.val * 256 + d.val) / 256 % 4096 = k.val; omega
      | ⟨2, _⟩ => show (k.val * 256 + d.val) % 256 = d.val; omega))

/-- Batch element 3: the reference slices it out of the input, drops the unit axis, multiplies by the matrix on the
    host and puts the unit axis back; at (0, r, d) that is entry (3, r, d) of the projection. -/
theorem product3 (x : FVec Ideal S4x4096x256 .f32) (P : FVec Ideal S4096x4096 .f32) (r : Fin 4096) (d : Fin 256) :
    val_main_v15 (F := Ideal) x P (ix3 (0 : Fin 1) r d) = Cert.Projection.entry P x (3 : Fin 4) r d := by
  rw [val_main_v15_apply, val_main_v11_apply]
  unfold Cert.Projection.entry
  refine Finset.sum_congr rfl fun k _ => ?_
  rw [val_main_v10_apply, val_main_v9_apply]
  have hk : k.val < 4096 := k.isLt
  have hd : d.val < 256 := d.isLt
  congr 1
  · exact congrArg P (funext fun a => Fin.ext (by
      match a with
      | ⟨0, _⟩ => rfl
      | ⟨1, _⟩ => rfl))
  · exact congrArg x (funext fun a => Fin.ext (by
      match a with
      | ⟨0, _⟩ => rfl
      | ⟨1, _⟩ => show (k.val * 256 + d.val) / 256 % 4096 = k.val; omega
      | ⟨2, _⟩ => show (k.val * 256 + d.val) % 256 = d.val; omega))

/-- THE REFERENCE'S RESULT is the batched projection: the stack read at (b, r, d) is the b-th product at (0, r, d). -/
theorem result_eq (x : FVec Ideal S4x4096x256 .f32) (P : FVec Ideal S4096x4096 .f32) :
    val_main_v16 (F := Ideal) x P = Cert.Projection.batched P x := by
  funext i
  obtain ⟨b, r, d, rfl⟩ : ∃ (b : Fin 4) (r : Fin 4096) (d : Fin 256), i = ix3 b r d := ⟨i 0, i 1, i 2, eq_ix3 i⟩
  rw [Cert.Projection.batched_ix3]
  unfold val_main_v16
  match b with
  | ⟨0, _⟩ =>
    exact (concatenate_apply_piece (0 : Fin S4x4096x256.rank) ([⟨S1x4096x256, val_main_v12 (F := Ideal) x P⟩, ⟨S1x4096x256, val_main_v13 (F := Ideal) x P⟩, ⟨S1x4096x256, val_main_v14 (F := Ideal) x P⟩, ⟨S1x4096x256, val_main_v15 (F := Ideal) x P⟩] : List ((s : Shape) × (s.Idx → EReal))) concatenates_S1x4096x256_S1x4096x256_S1x4096x256_S1x4096x256_S4x4096x256_d0
      (ix3 (⟨0, by decide⟩ : Fin 4) r d) 0 (by show 0 < 4; omega) S1x4096x256 (val_main_v12 (F := Ideal) x P) rfl rfl 0 rfl (ix3 (0 : Fin 1) r d)
      (fun a ha => by
        match a with
        | ⟨0, _⟩ => exact absurd rfl ha
        | ⟨1, _⟩ => rfl
        | ⟨2, _⟩ => rfl) rfl).trans (product0 x P r d)
  | ⟨1, _⟩ =>
    exact (concatenate_apply_piece (0 : Fin S4x4096x256.rank) ([⟨S1x4096x256, val_main_v12 (F := Ideal) x P⟩, ⟨S1x4096x256, val_main_v13 (F := Ideal) x P⟩, ⟨S1x4096x256, val_main_v14 (F := Ideal) x P⟩, ⟨S1x4096x256, val_main_v15 (F := Ideal) x P⟩] : List ((s : Shape) × (s.Idx → EReal))) concatenates_S1x4096x256_S1x4096x256_S1x4096x256_S1x4096x256_S4x4096x256_d0
      (ix3 (⟨1, by decide⟩ : Fin 4) r d) 1 (by show 1 < 4; omega) S1x4096x256 (val_main_v13 (F := Ideal) x P) rfl rfl 1 rfl (ix3 (0 : Fin 1) r d)
      (fun a ha => by
        match a with
        | ⟨0, _⟩ => exact absurd rfl ha
        | ⟨1, _⟩ => rfl
        | ⟨2, _⟩ => rfl) rfl).trans (product1 x P r d)
  | ⟨2, _⟩ =>
    exact (concatenate_apply_piece (0 : Fin S4x4096x256.rank) ([⟨S1x4096x256, val_main_v12 (F := Ideal) x P⟩, ⟨S1x4096x256, val_main_v13 (F := Ideal) x P⟩, ⟨S1x4096x256, val_main_v14 (F := Ideal) x P⟩, ⟨S1x4096x256, val_main_v15 (F := Ideal) x P⟩] : List ((s : Shape) × (s.Idx → EReal))) concatenates_S1x4096x256_S1x4096x256_S1x4096x256_S1x4096x256_S4x4096x256_d0
      (ix3 (⟨2, by decide⟩ : Fin 4) r d) 2 (by show 2 < 4; omega) S1x4096x256 (val_main_v14 (F := Ideal) x P) rfl rfl 2 rfl (ix3 (0 : Fin 1) r d)
      (fun a ha => by
        match a with
        | ⟨0, _⟩ => exact absurd rfl ha
        | ⟨1, _⟩ => rfl
        | ⟨2, _⟩ => rfl) rfl).trans (product2 x P r d)
  | ⟨3, _⟩ =>
    exact (concatenate_apply_piece (0 : Fin S4x4096x256.rank) ([⟨S1x4096x256, val_main_v12 (F := Ideal) x P⟩, ⟨S1x4096x256, val_main_v13 (F := Ideal) x P⟩, ⟨S1x4096x256, val_main_v14 (F := Ideal) x P⟩, ⟨S1x4096x256, val_main_v15 (F := Ideal) x P⟩] : List ((s : Shape) × (s.Idx → EReal))) concatenates_S1x4096x256_S1x4096x256_S1x4096x256_S1x4096x256_S4x4096x256_d0
      (ix3 (⟨3, by decide⟩ : Fin 4) r d) 3 (by show 3 < 4; omega) S1x4096x256 (val_main_v15 (F := Ideal) x P) rfl rfl 3 rfl (ix3 (0 : Fin 1) r d)
      (fun a ha => by
        match a with
        | ⟨0, _⟩ => exact absurd rfl ha
        | ⟨1, _⟩ => rfl
        | ⟨2, _⟩ => rfl) rfl).trans (product3 x P r d)

end Cert.ReferenceIdeal.Stack

end
-- ==== Proof.lean ====
/-
  The certificate of the batched projection kernel against its reference.

  Kernel: out[b] = P · x[b] for a 4096 × 4096 matrix P and a batch x of four 4096 × 256 matrices, computed by a
  grid of 8 points; each point takes 512 rows of P (narrowed to bf16, which changes nothing over the extended
  reals), the whole batch, and writes the 512 corresponding rows of every out[b], as eight 256 × 256 MXU products
  into zero accumulators.  Reference: four host matrix products P · x[b], stacked.

  Both sides are, entry by entry, the same sum  out[b, r, d] = ∑ k < 4096, P[r, k] · x[b, k, d]  of extended reals
  (Proof/Projection.lean): the kernel's result array by Proof/Tile.lean (one store), Proof/Block.lean (the eight
  stores of a point) and Proof/Whole.lean (the eight points cover the array); the reference's by Proof/Stack.lean.
  No term is regrouped, so finiteness of the inputs is not used.  The three frames are the generated frame runs
  (the reference's is its run with the result dropped), and the idealization rewrote nothing, so preserves is trivial.
-/
import proofs.«128808_g21036749816194_cont_8to1_1761_14_alg».proof.Defs
import proofs.«128808_g21036749816194_cont_8to1_1761_14_alg».proof.Proof.Gen.Kernel
import proofs.«128808_g21036749816194_cont_8to1_1761_14_alg».proof.Proof.Gen.Kernel.Skeleton
import proofs.«128808_g21036749816194_cont_8to1_1761_14_alg».proof.Proof.Gen.Kernel.Launch
import proofs.«128808_g21036749816194_cont_8to1_1761_14_alg».proof.Proof.Gen.Kernel.Points
import proofs.«128808_g21036749816194_cont_8to1_1761_14_alg».proof.Proof.Gen.Kernel.Frame
import proofs.«128808_g21036749816194_cont_8to1_1761_14_alg».proof.Proof.Gen.KernelIdeal
import proofs.«128808_g21036749816194_cont_8to1_1761_14_alg».proof.Proof.Gen.KernelIdeal.Skeleton
import proofs.«128808_g21036749816194_cont_8to1_1761_14_alg».proof.Proof.Gen.KernelIdeal.Launch
import proofs.«128808_g21036749816194_cont_8to1_1761_14_alg».proof.Proof.Gen.KernelIdeal.Points
import proofs.«128808_g21036749816194_cont_8to1_1761_14_alg».proof.Proof.Gen.KernelIdeal.Frame
import proofs.«128808_g21036749816194_cont_8to1_1761_14_alg».proof.Proof.Gen.ReferenceIdeal
import proofs.«128808_g21036749816194_cont_8to1_1761_14_alg».proof.Proof.Gen.Pre_finite_inputs
import proofs.«128808_g21036749816194_cont_8to1_1761_14_alg».proof.Proof.Gen.KernelIdeal.Value
import proofs.«128808_g21036749816194_cont_8to1_1761_14_alg».proof.Proof.Gen.ReferenceIdeal.Run
import proofs.«128808_g21036749816194_cont_8to1_1761_14_alg».proof.Proof.Gen.ReferenceIdeal.Read
import proofs.«128808_g21036749816194_cont_8to1_1761_14_alg».proof.Proof.Whole
import proofs.«128808_g21036749816194_cont_8to1_1761_14_alg».proof.Proof.Stack
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments alone: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the batched projection of the (agreeing) arguments. -/
theorem algebraic : Cert.algebraic_KernelIdeal_ReferenceIdeal := by
  intro m ρ m' ρ' _ hagree
  refine ⟨fun c => Cert.Projection.batched (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v16_eq _ _).trans (Cert.ReferenceIdeal.Stack.result_eq _ _)).trans ?_
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
